-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x1 .f32) (main_arg4 : FVec F S1 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S2000x1 : Shape := ⟨2, ![2000, 1]⟩
abbrev S1x64 : Shape := ⟨2, ![1, 64]⟩
abbrev S100000x1 : Shape := ⟨2, ![100000, 1]⟩
abbrev S1x1 : Shape := ⟨2, ![1, 1]⟩

abbrev nBuf : Space → Nat
  | .hbm => 82
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x1, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x1, .f32⟩
  | .hbm, ⟨74, _⟩ => ⟨S1700000x1, .f32⟩
  | .hbm, ⟨75, _⟩ => ⟨S_, .f32⟩
  | .hbm, ⟨76, _⟩ => ⟨S100000x1, .f32⟩
  | .hbm, ⟨77, _⟩ => ⟨S1700000x1, .i32⟩
  | .hbm, ⟨78, _⟩ => ⟨S100000x1, .f32⟩
  | .hbm, ⟨79, _⟩ => ⟨S1x1, .f32⟩
  | .hbm, ⟨80, _⟩ => ⟨S100000x1, .f32⟩
  | .hbm, ⟨81, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x1, .f32⟩
  | .local _ .vmem, ⟨8, _⟩ => ⟨S2000x1, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x1, .f32⟩
  | .local _ .vmem, ⟨19, _⟩ => ⟨S2000x1, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | .local _ .vmem, ⟨25, _⟩ => ⟨S2000x1, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S1x1, .f32⟩
  | .local _ .vmem, ⟨30, _⟩ => ⟨S2000x1, .f32⟩
  | .local _ .vmem, ⟨31, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![850], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![850], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x1_S2000x1_1_0_0_1_n_n_wf : DotDims.WF S2000x64 S64x1 S2000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S1700000x64.size a
  hwx1_0 : ∀ i : grid1.Coords, EltTy.bits .f32 = 32 ∨ (Rect.block (s := S1700000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S1700000x1.size a
  hwx1_1 : ∀ i : grid1.Coords, EltTy.bits .f32 = 32 ∨ (Rect.block (s := S1700000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S1700000x64.size a
  hwx1_2 : ∀ i : grid1.Coords, EltTy.bits .f32 = 32 ∨ (Rect.block (s := S1700000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x1.size a ≤ S1700000x1.size a
  hwx4_0 : ∀ i : grid4.Coords, EltTy.bits .f32 = 32 ∨ (Rect.block (s := S1700000x1) S2000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S1700000x1.size a
  hwx4_1 : ∀ i : grid4.Coords, EltTy.bits .f32 = 32 ∨ (Rect.block (s := S1700000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S1700000x1.size a
  hwx4_2 : ∀ i : grid4.Coords, EltTy.bits .f32 = 32 ∨ (Rect.block (s := S1700000x1) S2000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S100000x1.size a
  hwx5_0 : ∀ i : grid5.Coords, EltTy.bits .f32 = 32 ∨ (Rect.block (s := S100000x1) S2000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S2000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S2000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x1, .f32⟩
  | .hbm, ⟨112, _⟩ => ⟨S1700000x1, .f32⟩
  | .hbm, ⟨113, _⟩ => ⟨S1700000x1, .f32⟩
  | .hbm, ⟨114, _⟩ => ⟨S_, .f32⟩
  | .hbm, ⟨115, _⟩ => ⟨S100000x1, .f32⟩
  | .hbm, ⟨116, _⟩ => ⟨S1700000x1, .i32⟩
  | .hbm, ⟨117, _⟩ => ⟨S100000x1, .f32⟩
  | .hbm, ⟨118, _⟩ => ⟨S1x1, .f32⟩
  | .hbm, ⟨119, _⟩ => ⟨S100000x1, .f32⟩
  | .hbm, ⟨120, _⟩ => ⟨S100000x1, .f32⟩
  | .hbm, ⟨121, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.HostKeeps.lean ====
/- A table of cases: one line per (host stretch of the kernel's program, buffer that the stretch does not write), each
   closed by the one tactic below: no operation of the literal stretch has the buffer among the buffers it writes, so
   the buffer holds after the stretch what it held before, whatever the contents Wb the stretch starts from. -/
import proofs.«103597_j14516989460622_1_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (Wb : Valuation τ sig (Elt Ideal))

/-- Discharges "no operation of this literal stretch writes this buffer". -/
macro "host_keeps" : tactic =>
  `(tactic| (refine StableHlo.after_of_forall_not_mem _ _ (List.forall_iff_forall_mem.mp ?_)
             simp only [List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! Buffers the stretch `hostOps0` does not write. -/
theorem keep0_arg0 : StableHlo.after hostOps0 Wb (Proc.devRef .tc main_arg0) = Wb (Proc.devRef .tc main_arg0) := by host_keeps
theorem keep0_arg1 : StableHlo.after hostOps0 Wb (Proc.devRef .tc main_arg1) = Wb (Proc.devRef .tc main_arg1) := by host_keeps
theorem keep0_arg2 : StableHlo.after hostOps0 Wb (Proc.devRef .tc main_arg2) = Wb (Proc.devRef .tc main_arg2) := by host_keeps
theorem keep0_arg3 : StableHlo.after hostOps0 Wb (Proc.devRef .tc main_arg3) = Wb (Proc.devRef .tc main_arg3) := by host_keeps
theorem keep0_arg4 : StableHlo.after hostOps0 Wb (Proc.devRef .tc main_arg4) = Wb (Proc.devRef .tc main_arg4) := by host_keeps

/-! Buffers the stretch `hostOps0_1` does not write. -/
theorem keep01_v3 : StableHlo.after hostOps0_1 Wb (Proc.devRef .tc main_v3) = Wb (Proc.devRef .tc main_v3) := by host_keeps
theorem keep01_v6 : StableHlo.after hostOps0_1 Wb (Proc.devRef .tc main_v6) = Wb (Proc.devRef .tc main_v6) := by host_keeps
theorem keep01_arg0 : StableHlo.after hostOps0_1 Wb (Proc.devRef .tc main_arg0) = Wb (Proc.devRef .tc main_arg0) := by host_keeps
theorem keep01_arg1 : StableHlo.after hostOps0_1 Wb (Proc.devRef .tc main_arg1) = Wb (Proc.devRef .tc main_arg1) := by host_keeps
theorem keep01_arg2 : StableHlo.after hostOps0_1 Wb (Proc.devRef .tc main_arg2) = Wb (Proc.devRef .tc main_arg2) := by host_keeps
theorem keep01_arg3 : StableHlo.after hostOps0_1 Wb (Proc.devRef .tc main_arg3) = Wb (Proc.devRef .tc main_arg3) := by host_keeps
theorem keep01_arg4 : StableHlo.after hostOps0_1 Wb (Proc.devRef .tc main_arg4) = Wb (Proc.devRef .tc main_arg4) := by host_keeps

/-! Buffers the stretch `hostOps0_2` does not write. -/
theorem keep02_v3 : StableHlo.after hostOps0_2 Wb (Proc.devRef .tc main_v3) = Wb (Proc.devRef .tc main_v3) := by host_keeps
theorem keep02_v6 : StableHlo.after hostOps0_2 Wb (Proc.devRef .tc main_v6) = Wb (Proc.devRef .tc main_v6) := by host_keeps
theorem keep02_arg0 : StableHlo.after hostOps0_2 Wb (Proc.devRef .tc main_arg0) = Wb (Proc.devRef .tc main_arg0) := by host_keeps
theorem keep02_arg1 : StableHlo.after hostOps0_2 Wb (Proc.devRef .tc main_arg1) = Wb (Proc.devRef .tc main_arg1) := by host_keeps
theorem keep02_arg2 : StableHlo.after hostOps0_2 Wb (Proc.devRef .tc main_arg2) = Wb (Proc.devRef .tc main_arg2) := by host_keeps
theorem keep02_arg3 : StableHlo.after hostOps0_2 Wb (Proc.devRef .tc main_arg3) = Wb (Proc.devRef .tc main_arg3) := by host_keeps
theorem keep02_arg4 : StableHlo.after hostOps0_2 Wb (Proc.devRef .tc main_arg4) = Wb (Proc.devRef .tc main_arg4) := by host_keeps

/-! Buffers the stretch `hostOps1` does not write. -/
theorem keep1_v3 : StableHlo.after hostOps1 Wb (Proc.devRef .tc main_v3) = Wb (Proc.devRef .tc main_v3) := by host_keeps
theorem keep1_v6 : StableHlo.after hostOps1 Wb (Proc.devRef .tc main_v6) = Wb (Proc.devRef .tc main_v6) := by host_keeps
theorem keep1_v30 : StableHlo.after hostOps1 Wb (Proc.devRef .tc main_v30) = Wb (Proc.devRef .tc main_v30) := by host_keeps
theorem keep1_arg2 : StableHlo.after hostOps1 Wb (Proc.devRef .tc main_arg2) = Wb (Proc.devRef .tc main_arg2) := by host_keeps
theorem keep1_arg3 : StableHlo.after hostOps1 Wb (Proc.devRef .tc main_arg3) = Wb (Proc.devRef .tc main_arg3) := by host_keeps
theorem keep1_arg4 : StableHlo.after hostOps1 Wb (Proc.devRef .tc main_arg4) = Wb (Proc.devRef .tc main_arg4) := by host_keeps

/-! Buffers the stretch `hostOps2` does not write. -/
theorem keep2_v3 : StableHlo.after hostOps2 Wb (Proc.devRef .tc main_v3) = Wb (Proc.devRef .tc main_v3) := by host_keeps
theorem keep2_v6 : StableHlo.after hostOps2 Wb (Proc.devRef .tc main_v6) = Wb (Proc.devRef .tc main_v6) := by host_keeps
theorem keep2_v30 : StableHlo.after hostOps2 Wb (Proc.devRef .tc main_v30) = Wb (Proc.devRef .tc main_v30) := by host_keeps
theorem keep2_arg3 : StableHlo.after hostOps2 Wb (Proc.devRef .tc main_arg3) = Wb (Proc.devRef .tc main_arg3) := by host_keeps
theorem keep2_arg4 : StableHlo.after hostOps2 Wb (Proc.devRef .tc main_arg4) = Wb (Proc.devRef .tc main_arg4) := by host_keeps

/-! Buffers the stretch `hostOps4` does not write. -/
theorem keep4_v6 : StableHlo.after hostOps4 Wb (Proc.devRef .tc main_v6) = Wb (Proc.devRef .tc main_v6) := by host_keeps
theorem keep4_v30 : StableHlo.after hostOps4 Wb (Proc.devRef .tc main_v30) = Wb (Proc.devRef .tc main_v30) := by host_keeps
theorem keep4_arg4 : StableHlo.after hostOps4 Wb (Proc.devRef .tc main_arg4) = Wb (Proc.devRef .tc main_arg4) := by host_keeps

end Cert.KernelIdeal.Hand

end
-- ==== Proof.HostSteps.lean ====
/-
  The host stretches of the kernel's program, one at a time, from ANY contents of the buffers (a valuation Wb).
  Each stretch's result is read as the reference's stage of the same name: the two programs compute the edge lists
  (sources and destinations with a self-loop per node), the in-degrees, their inverse square roots where positive,
  the per-edge normalisation, the gathers of rows by source and the scatter-additions by destination with the SAME
  host operations, so once the stretch's inputs are the reference's stages its outputs are too. Two layout facts are
  used: a vector reshaped to a column is that vector broadcast along axis 0, and a vector reshaped to a one-row matrix
  is it broadcast along axis 1.
-/
import proofs.«103597_j14516989460622_1_alg».proof.Proof.Gen.KernelIdeal.Frame
import proofs.«103597_j14516989460622_1_alg».proof.Proof.RefRead
import proofs.«103597_j14516989460622_1_alg».proof.Proof.LibLayout
import proofs.«103597_j14516989460622_1_alg».proof.Proof.HostKeeps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (Wb : Valuation τ sig (Elt Ideal))

/-! ## What each stretch computes -/

abbrev X5 := (⟨S2x1600000, .i32⟩ : BufTy).Contents (Elt Ideal)
abbrev X0 := (⟨S100000x128, .f32⟩ : BufTy).Contents (Elt Ideal)
abbrev X1 := (⟨S128x64, .f32⟩ : BufTy).Contents (Elt Ideal)
abbrev X2 := (⟨S64, .f32⟩ : BufTy).Contents (Elt Ideal)
abbrev X3 := (⟨S64x1, .f32⟩ : BufTy).Contents (Elt Ideal)
abbrev X4 := (⟨S1, .f32⟩ : BufTy).Contents (Elt Ideal)

/-- The source list: the edges' sources followed by every node. -/
theorem ops0_v3 (x5 : X5) (h5 : Wb (Proc.devRef .tc main_arg5) = x5) :
    StableHlo.after hostOps0 Wb (Proc.devRef .tc main_v3) = Cert.ReferenceIdeal.ReadP.val_main_v3 (F := Ideal) x5 := by
  subst h5; after_results; rfl

/-- The destination list: the edges' destinations followed by every node. -/
theorem ops0_v6 (x5 : X5) (h5 : Wb (Proc.devRef .tc main_arg5) = x5) :
    StableHlo.after hostOps0 Wb (Proc.devRef .tc main_v6) = Cert.ReferenceIdeal.ReadP.val_main_v6 (F := Ideal) x5 := by
  subst h5; after_results; rfl

/-- Which nodes have positive in-degree. -/
theorem ops0_v12 (x5 : X5) (h5 : Wb (Proc.devRef .tc main_arg5) = x5) :
    StableHlo.after hostOps0 Wb (Proc.devRef .tc main_v12) = Cert.ReferenceIdeal.ReadP.val_main_v13 (F := Ideal) x5 := by
  subst h5; after_results; rfl

/-- The inverse square roots of the in-degrees. -/
theorem ops0_v13 (x5 : X5) (h5 : Wb (Proc.devRef .tc main_arg5) = x5) :
    StableHlo.after hostOps0 Wb (Proc.devRef .tc main_v13) = Cert.ReferenceIdeal.ReadP.val_main_v14 (F := Ideal) x5 := by
  subst h5; after_results; rfl

theorem ops0_cst2 : StableHlo.after hostOps0 Wb (Proc.devRef .tc main_cst_2) = Cert.ReferenceIdeal.ReadP.val_main_cst_2 (F := Ideal) := by
  after_results; rfl

/-- The selection's three operations, written over the buffers themselves. -/
theorem hostOps0_1_plain : (hostOps0_1 : List (HloOp τ sig (Elt Ideal))) =
  [ StableHlo.unary main_cst_2 main_call0_v0 id,
    StableHlo.unary main_call0_v0 main_call0_v1 (broadcastInDim S100000 ![] bcast_S_S100000),
    StableHlo.ternary main_v12 main_v13 main_call0_v1 main_v14 select ] := rfl

/-- The normalising factor of each node: the inverse square root of its in-degree where that is positive, else zero. -/
theorem ops01_v14 (x5 : X5) (h12 : Wb (Proc.devRef .tc main_v12) = Cert.ReferenceIdeal.ReadP.val_main_v13 (F := Ideal) x5)
    (h13 : Wb (Proc.devRef .tc main_v13) = Cert.ReferenceIdeal.ReadP.val_main_v14 (F := Ideal) x5)
    (hc : Wb (Proc.devRef .tc main_cst_2) = Cert.ReferenceIdeal.ReadP.val_main_cst_2 (F := Ideal)) :
    StableHlo.after hostOps0_1 Wb (Proc.devRef .tc main_v14) = Cert.ReferenceIdeal.ReadP.val_main_v15 (F := Ideal) x5 := by
  rw [hostOps0_1_plain]
  after_results
  rw [h12, h13, hc]
  rfl

set_option maxHeartbeats 2000000 in
/-- The per-edge normalisation as a column: the product of the two endpoints' factors. -/
theorem ops02_v30 (x5 : X5) (h14 : Wb (Proc.devRef .tc main_v14) = Cert.ReferenceIdeal.ReadP.val_main_v15 (F := Ideal) x5)
    (h3 : Wb (Proc.devRef .tc main_v3) = Cert.ReferenceIdeal.ReadP.val_main_v3 (F := Ideal) x5)
    (h6 : Wb (Proc.devRef .tc main_v6) = Cert.ReferenceIdeal.ReadP.val_main_v6 (F := Ideal) x5) :
    StableHlo.after hostOps0_2 Wb (Proc.devRef .tc main_v30) = Cert.ReferenceIdeal.ReadP.val_main_v38 (F := Ideal) x5 := by
  after_results_simp
  rw [h14, h3, h6]
  exact (Cert.Proof.Layout.reshape_col_eq_broadcastInDim _ _ Cert.ReferenceIdeal.Gen.bcast_S1700000_S1700000x1_0).trans rfl

/-- The first layer's rows gathered by source. -/
theorem ops1_v38 (x0 : X0) (x1 : X1) (x5 : X5) (h31 : Wb (Proc.devRef .tc main_v31) = Cert.ReferenceIdeal.ReadP.val_main_v7 (F := Ideal) x0 x1)
    (h3 : Wb (Proc.devRef .tc main_v3) = Cert.ReferenceIdeal.ReadP.val_main_v3 (F := Ideal) x5) :
    StableHlo.after hostOps1 Wb (Proc.devRef .tc main_v38) = Cert.ReferenceIdeal.ReadP.val_main_v37 (F := Ideal) x0 x1 x5 := by
  after_results
  rw [h31, h3]
  rfl

/-- The first layer's messages added up by destination. -/
theorem ops2_v42 (x0 : X0) (x1 : X1) (x5 : X5) (h39 : Wb (Proc.devRef .tc main_v39) = Cert.ReferenceIdeal.ReadP.val_main_v40 (F := Ideal) x0 x1 x5)
    (h6 : Wb (Proc.devRef .tc main_v6) = Cert.ReferenceIdeal.ReadP.val_main_v6 (F := Ideal) x5) :
    StableHlo.after hostOps2 Wb (Proc.devRef .tc main_v42) = Cert.ReferenceIdeal.ReadP.val_main_v43 (F := Ideal) x0 x1 x5 := by
  after_results
  rw [h39, h6]
  rfl

/-- The first bias as a one-row matrix. -/
theorem ops2_v43 (x2 : X2) (h2 : Wb (Proc.devRef .tc main_arg2) = x2) :
    StableHlo.after hostOps2 Wb (Proc.devRef .tc main_v43) = Cert.ReferenceIdeal.ReadP.val_main_v44 (F := Ideal) x2 := by
  subst h2
  after_results
  exact (Cert.Proof.Layout.reshape_row_eq_broadcastInDim _ _ Cert.ReferenceIdeal.Gen.bcast_S64_S1x64_1).trans rfl

/-- The second layer's rows gathered by source. -/
theorem ops4_v52 (x0 : X0) (x1 : X1) (x2 : X2) (x3 : X3) (x5 : X5)
    (h45 : Wb (Proc.devRef .tc main_v45) = Cert.ReferenceIdeal.ReadP.val_main_v48 (F := Ideal) x0 x1 x2 x3 x5)
    (h3 : Wb (Proc.devRef .tc main_v3) = Cert.ReferenceIdeal.ReadP.val_main_v3 (F := Ideal) x5) :
    StableHlo.after hostOps4 Wb (Proc.devRef .tc main_v52) = Cert.ReferenceIdeal.ReadP.val_main_v78 (F := Ideal) x0 x1 x2 x3 x5 := by
  after_results
  rw [h45, h3]
  rfl

/-- The second layer's messages added up by destination. -/
theorem ops5_v56 (x0 : X0) (x1 : X1) (x2 : X2) (x3 : X3) (x5 : X5)
    (h53 : Wb (Proc.devRef .tc main_v53) = Cert.ReferenceIdeal.ReadP.val_main_v80 (F := Ideal) x0 x1 x2 x3 x5)
    (h6 : Wb (Proc.devRef .tc main_v6) = Cert.ReferenceIdeal.ReadP.val_main_v6 (F := Ideal) x5) :
    StableHlo.after hostOps5 Wb (Proc.devRef .tc main_v56) = Cert.ReferenceIdeal.ReadP.val_main_v83 (F := Ideal) x0 x1 x2 x3 x5 := by
  after_results
  rw [h53, h6]
  rfl

/-- The second bias as a one-by-one matrix. -/
theorem ops5_v57 (x4 : X4) (h4 : Wb (Proc.devRef .tc main_arg4) = x4) :
    StableHlo.after hostOps5 Wb (Proc.devRef .tc main_v57) = Cert.ReferenceIdeal.ReadP.val_main_v84 (F := Ideal) x4 := by
  subst h4
  after_results
  exact (Cert.Proof.Layout.reshape_row_eq_broadcastInDim _ _ Cert.ReferenceIdeal.Gen.bcast_S1_S1x1_1).trans rfl

/-- The result column as a vector. -/
theorem ops6_v59 (x0 : X0) (x1 : X1) (x2 : X2) (x3 : X3) (x4 : X4) (x5 : X5)
    (h58 : Wb (Proc.devRef .tc main_v58) = Cert.ReferenceIdeal.ReadP.val_main_v86 (F := Ideal) x0 x1 x2 x3 x4 x5) :
    StableHlo.after hostOps6 Wb (Proc.devRef .tc main_v59) = Cert.ReferenceIdeal.ReadP.val_main_v87 (F := Ideal) x0 x1 x2 x3 x4 x5 := by
  after_results
  rw [h58]
  rfl

end Cert.KernelIdeal.Hand

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.LibBlockOps.lean ====
/-
  The three block bodies of a two-layer graph convolution, each read at one element beside the whole-array host
  operation it is a block of, on the extended reals.

  * product: element (p, q) of a block [n, K] times a matrix [K, b] on the matrix unit (both narrowed on the way in,
    which is the identity here, accumulated from zero) is the sum over k of block (p, k) matrix (k, q); element (r, q)
    of the host's product of the array [N, K] with the matrix is the same sum over row r: equal when block row p is
    array row r.
  * scaling by a column: element (p, q) of block times (column block broadcast along the row) is
    block (p, q) * column (p, 0); on the host, array times (column broadcast along the row) at (r, q) is
    array (r, q) * column (r, 0). With one column (b = 1) the kernel multiplies the two column blocks directly.
  * bias: element (p, q) of block + bias row broadcast down the rows is block (p, q) + bias (0, q), as on the host.
-/
import proofs.«103597_j14516989460622_1_alg».proof.Proof.LibBlocks
import proofs.«103597_j14516989460622_1_alg».proof.Proof.LibColumn

noncomputable section

open scoped BigOperators

namespace Cert.Proof.Pure

open Idealize.ShloMosaic Idealize.ShloMosaic.ValueIdx Cert.LibBlocks

/-- The zero offsets of a two-axis block, as the constant function. -/
theorem hz : (![0, 0] : Fin 2 → Nat) = fun _ => 0 := funext fun a => by fin_cases a <;> rfl

/-- Block product against the host's product at one element: equal when block row p is array row r. -/
theorem blockMatmul_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 x0 hlt) (truncf .bf16 x1 hlt) (constant ⟨2, ![n, b]⟩ .f32 0x00000000#32) (ix2 p q)
      = Host.dotGeneral dr none h w (ix2 r q) := by
  subst h1
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

/-- Block scaled by its column block, against the array scaled by the column, at one element. -/
theorem blockScale_apply {n N b : Nat}
    (hb : (⟨2, ![n, 1]⟩ : Shape).Broadcasts ⟨2, ![n, b]⟩)
    (hbd : (⟨2, ![N, 1]⟩ : Shape).BroadcastsInDim ⟨2, ![N, b]⟩ ![0, 1])
    (x0 : FVec Ideal ⟨2, ![n, b]⟩ .f32) (x1 : FVec Ideal ⟨2, ![n, 1]⟩ .f32)
    (a : FVec Ideal ⟨2, ![N, b]⟩ .f32) (col : FVec Ideal ⟨2, ![N, 1]⟩ .f32)
    (p : Fin n) (r : Fin N) (q : Fin b) (h0 : x0 (ix2 p q) = a (ix2 r q))
    (h1 : x1 (ix2 p (0 : Fin 1)) = col (ix2 r (0 : Fin 1))) :
    mulf x0 (broadcastTo ⟨2, ![n, b]⟩ x1 hb) (ix2 p q)
      = mulf a (broadcastInDim ⟨2, ![N, b]⟩ ![0, 1] hbd col) (ix2 r q) := by
  rw [mulf_apply, mulf_apply, Cert.Proof.Column.broadcastTo_a1_ab_apply,
    broadcastInDim_apply ![0, 1] hbd col (ix2 r q) (ix2 r (0 : Fin 1)) (fun ax => by
      match ax with
      | ⟨0, _⟩ =>
        show r.val = if N = 1 then 0 else r.val
        have := r.isLt
        split_ifs <;> omega
      | ⟨1, _⟩ => rfl),
    h0, h1]

/-- Block plus bias row against array plus bias row, the row broadcast down the rows on both sides, at one element. -/
theorem blockBias_apply {n N b : Nat}
    (hb : (⟨2, ![1, b]⟩ : Shape).Broadcasts ⟨2, ![n, b]⟩)
    (hbd : (⟨2, ![1, b]⟩ : Shape).BroadcastsInDim ⟨2, ![N, b]⟩ ![0, 1])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    addf x0 (broadcastTo ⟨2, ![n, b]⟩ x1 hb) (ix2 p q)
      = addf a (broadcastInDim ⟨2, ![N, b]⟩ ![0, 1] hbd b2) (ix2 r q) := by
  subst h1
  rw [addf_apply, addf_apply,
    broadcastTo_apply x1 hb (ix2 p q) (ix2 (0 : Fin 1) q) (fun ax => by
      match ax with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun ax => by
      match ax with
      | ⟨0, _⟩ => rfl
      | ⟨1, _⟩ =>
        show q.val = if b = 1 then 0 else q.val
        have := q.isLt
        split_ifs <;> omega),
    h0]

end Cert.Proof.Pure

end
-- ==== Proof.Region0.lean ====
/-
  The first product, block by block. The kernel multiplies rows 2000 t … 2000 t + 1999 of the node features
  [100000, 128] by the whole weight matrix [128, 64] at grid point t and writes rows 2000 t … of the result. Entry
  (p, q) of what point t writes is the sum over k of x (2000 t + p, k) w (k, q): entry (2000 t + p, q) of the whole
  product. The 50 blocks cover all 100000 rows, so the array the region leaves is the whole product.
-/
import proofs.«103597_j14516989460622_1_alg».proof.Proof.Gen.KernelIdeal.Frame
import proofs.«103597_j14516989460622_1_alg».proof.Proof.RefRead
import proofs.«103597_j14516989460622_1_alg».proof.Proof.LibBlockOps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Pure (hz)

variable (V : (c : Dev nD) → (b : Ref sig .tc) → Buf (Elt Ideal) ((c : Thread nD τ).loc b))

/-- The whole product, as the reference states it. -/
abbrev prod0 (c : Dev nD) : S100000x64.Idx → Elt Ideal .f32 :=
  Cert.ReferenceIdeal.ReadP.val_main_v7 (F := Ideal) (V c main_arg0) (V c main_arg1)

/-- The printed index maps over the grid: the row blocks move with the point, the weight block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block product's dimension numbers are the plain rows-by-columns ones. -/
theorem dk_plain0 : dot_S2000x128_S128x64_S2000x64_1_0_0_1_n_n = DotDims.plain 2000 128 64 := rfl
/-- So are the whole product's. -/
theorem dr_plain0 : Cert.ReferenceIdeal.dot_S100000x128_S128x64_S100000x64_1_0_0_1_n_n = DotDims.plain 100000 128 64 := rfl

/-- One entry of a point's block product is the matching entry of the whole product. -/
theorem point0 (x0 : Vec Ideal S2000x128 .f32) (x1 : Vec Ideal S128x64 .f32)
    (X : FVec Ideal S100000x128 .f32) (W : FVec Ideal S128x64 .f32) (j : S2000x64.Idx) (i : S100000x64.Idx)
    (hi1 : (i 1).val = (j 1).val)
    (h0 : ∀ k : Fin 128, x0 (ix2 (j 0) k) = X (ix2 (i 0) k)) (h1 : x1 = W) :
    k0_pay1 x0 x1 j = Cert.ReferenceIdeal.ReadP.val_main_v7 (F := Ideal) X W i := by
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  rw [hq]
  exact Cert.Proof.Pure.blockMatmul_apply dot_S2000x128_S128x64_S2000x64_1_0_0_1_n_n dk_plain0
    Cert.ReferenceIdeal.dot_S100000x128_S128x64_S100000x64_1_0_0_1_n_n dr_plain0 bitsLt_bf16_f32 x0 x1 X W p r q h0 h1

/-- What point t writes back is block t of the whole product. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  obtain ⟨e00, e01, e10, e11, e20, e21⟩ := idx0 t
  funext j
  rw [View.read_apply]
  refine point0 _ _ _ _ j _ ?_ ?_ ?_
  · show win0_2.index t (1 : Fin 2) * 64 + 1 * (j 1).val = (j 1).val
    rw [e21]; omega
  · intro k
    unfold iblk0
    rw [View.read_apply]
    refine congrArg (V c main_arg0) ?_
    funext a; apply Fin.ext
    match a with
    | ⟨0, _⟩ => show win0_0.index t (0 : Fin 2) * 2000 + 1 * (j 0).val = win0_2.index t (0 : Fin 2) * 2000 + 1 * (j 0).val; rw [e00, e20]
    | ⟨1, _⟩ => show win0_0.index t (1 : Fin 2) * 128 + 1 * k.val = k.val; rw [e01]; omega
  · unfold iblk0
    funext y
    rw [View.read_apply]
    refine congrArg (V c main_arg1) ?_
    funext a; apply Fin.ext
    match a with
    | ⟨0, _⟩ => show win0_1.index t (0 : Fin 2) * 128 + 1 * (y 0).val = (y 0).val; rw [e10]; omega
    | ⟨1, _⟩ => show win0_1.index t (1 : Fin 2) * 64 + 1 * (y 1).val = (y 1).val; rw [e11]; omega

/-- Every row lies in some point's block. -/
theorem cover0 (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  let t : Fin cfg0.N := ⟨(i 0).val / 2000, by rw [show cfg0.N = 50 from N_0]; omega⟩
  obtain ⟨e00, e01, e10, e11, e20, e21⟩ := idx0 t
  refine ⟨t, flush0_2 t, ?_⟩
  show i ∈ ((View.whole main_v31).slice (win0_2.rect t)).set
  rw [View.set_slice_whole, Rect.mem_set_unit]
  intro a
  match a with
  | ⟨0, _⟩ =>
    show win0_2.index t (0 : Fin 2) * 2000 ≤ (i 0).val ∧ (i 0).val < win0_2.index t (0 : Fin 2) * 2000 + 2000
    rw [e20]; show (i 0).val / 2000 * 2000 ≤ (i 0).val ∧ (i 0).val < (i 0).val / 2000 * 2000 + 2000; omega
  | ⟨1, _⟩ =>
    show win0_2.index t (1 : Fin 2) * 64 ≤ (i 1).val ∧ (i 1).val < win0_2.index t (1 : Fin 2) * 64 + 64
    rw [e21]; omega

/-- The array region 0 leaves is the whole product of the arrays it finds. -/
theorem region0_value (c : Dev nD) : (dat0 V c).arrAt 2 cfg0.N = prod0 V c :=
  (dat0 V c).arrAt_eq_of_cover 2 (prod0 V c) (fun t _ => flushed0 V c t) cover0

end Cert.KernelIdeal.Hand

end
-- ==== Proof.Boundaries1.lean ====
/-
  The contents of the kernel program's buffers at the boundaries between its segments, up to the entry of the second
  kernel region, each read as a stage of the reference: the edge lists, the normalisation column, the first product
  (what region 0 leaves) and its rows gathered by source. A buffer that a segment does not write is carried over from
  the boundary before.
-/
import proofs.«103597_j14516989460622_1_alg».proof.Proof.HostSteps
import proofs.«103597_j14516989460622_1_alg».proof.Proof.Region0

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The six arguments as launched. -/
abbrev a0 (c : Dev nD) : X0 := m ((c.tc : Thread nD τ).loc main_arg0)
abbrev a1 (c : Dev nD) : X1 := m ((c.tc : Thread nD τ).loc main_arg1)
abbrev a2 (c : Dev nD) : X2 := m ((c.tc : Thread nD τ).loc main_arg2)
abbrev a3 (c : Dev nD) : X3 := m ((c.tc : Thread nD τ).loc main_arg3)
abbrev a4 (c : Dev nD) : X4 := m ((c.tc : Thread nD τ).loc main_arg4)
abbrev a5 (c : Dev nD) : X5 := m ((c.tc : Thread nD τ).loc main_arg5)

/-! ## After the first stretch: the edge lists, the degrees' tests and inverse roots -/

theorem W1_v3 (c : Dev nD) : W1 m ρ c (Proc.devRef .tc main_v3) = Cert.ReferenceIdeal.ReadP.val_main_v3 (F := Ideal) (a5 m c) := ops0_v3 (W0 m ρ c) _ rfl
theorem W1_v6 (c : Dev nD) : W1 m ρ c (Proc.devRef .tc main_v6) = Cert.ReferenceIdeal.ReadP.val_main_v6 (F := Ideal) (a5 m c) := ops0_v6 (W0 m ρ c) _ rfl
theorem W1_v12 (c : Dev nD) : W1 m ρ c (Proc.devRef .tc main_v12) = Cert.ReferenceIdeal.ReadP.val_main_v13 (F := Ideal) (a5 m c) := ops0_v12 (W0 m ρ c) _ rfl
theorem W1_v13 (c : Dev nD) : W1 m ρ c (Proc.devRef .tc main_v13) = Cert.ReferenceIdeal.ReadP.val_main_v14 (F := Ideal) (a5 m c) := ops0_v13 (W0 m ρ c) _ rfl
theorem W1_cst_2 (c : Dev nD) : W1 m ρ c (Proc.devRef .tc main_cst_2) = Cert.ReferenceIdeal.ReadP.val_main_cst_2 (F := Ideal) := ops0_cst2 (W0 m ρ c)
theorem W1_arg0 (c : Dev nD) : W1 m ρ c (Proc.devRef .tc main_arg0) = a0 m c := keep0_arg0 (W0 m ρ c)
theorem W1_arg1 (c : Dev nD) : W1 m ρ c (Proc.devRef .tc main_arg1) = a1 m c := keep0_arg1 (W0 m ρ c)
theorem W1_arg2 (c : Dev nD) : W1 m ρ c (Proc.devRef .tc main_arg2) = a2 m c := keep0_arg2 (W0 m ρ c)
theorem W1_arg3 (c : Dev nD) : W1 m ρ c (Proc.devRef .tc main_arg3) = a3 m c := keep0_arg3 (W0 m ρ c)
theorem W1_arg4 (c : Dev nD) : W1 m ρ c (Proc.devRef .tc main_arg4) = a4 m c := keep0_arg4 (W0 m ρ c)

/-! ## After the selection: each node's normalising factor -/

theorem W2_v14 (c : Dev nD) : W2 m ρ c (Proc.devRef .tc main_v14) = Cert.ReferenceIdeal.ReadP.val_main_v15 (F := Ideal) (a5 m c) :=
  ops01_v14 (W1 m ρ c) _ (W1_v12 m ρ c) (W1_v13 m ρ c) (W1_cst_2 m ρ c)
theorem W2_v3 (c : Dev nD) : W2 m ρ c (Proc.devRef .tc main_v3) = Cert.ReferenceIdeal.ReadP.val_main_v3 (F := Ideal) (a5 m c) :=
  (keep01_v3 (W1 m ρ c)).trans (W1_v3 m ρ c)
theorem W2_v6 (c : Dev nD) : W2 m ρ c (Proc.devRef .tc main_v6) = Cert.ReferenceIdeal.ReadP.val_main_v6 (F := Ideal) (a5 m c) :=
  (keep01_v6 (W1 m ρ c)).trans (W1_v6 m ρ c)
theorem W2_arg0 (c : Dev nD) : W2 m ρ c (Proc.devRef .tc main_arg0) = a0 m c :=
  (keep01_arg0 (W1 m ρ c)).trans (W1_arg0 m ρ c)
theorem W2_arg1 (c : Dev nD) : W2 m ρ c (Proc.devRef .tc main_arg1) = a1 m c :=
  (keep01_arg1 (W1 m ρ c)).trans (W1_arg1 m ρ c)
theorem W2_arg2 (c : Dev nD) : W2 m ρ c (Proc.devRef .tc main_arg2) = a2 m c :=
  (keep01_arg2 (W1 m ρ c)).trans (W1_arg2 m ρ c)
theorem W2_arg3 (c : Dev nD) : W2 m ρ c (Proc.devRef .tc main_arg3) = a3 m c :=
  (keep01_arg3 (W1 m ρ c)).trans (W1_arg3 m ρ c)
theorem W2_arg4 (c : Dev nD) : W2 m ρ c (Proc.devRef .tc main_arg4) = a4 m c :=
  (keep01_arg4 (W1 m ρ c)).trans (W1_arg4 m ρ c)

/-! ## At the entry of region 0: the normalisation column -/

theorem W3_v30 (c : Dev nD) : W3 m ρ c (Proc.devRef .tc main_v30) = Cert.ReferenceIdeal.ReadP.val_main_v38 (F := Ideal) (a5 m c) :=
  ops02_v30 (W2 m ρ c) _ (W2_v14 m ρ c) (W2_v3 m ρ c) (W2_v6 m ρ c)
theorem W3_v3 (c : Dev nD) : W3 m ρ c (Proc.devRef .tc main_v3) = Cert.ReferenceIdeal.ReadP.val_main_v3 (F := Ideal) (a5 m c) :=
  (keep02_v3 (W2 m ρ c)).trans (W2_v3 m ρ c)
theorem W3_v6 (c : Dev nD) : W3 m ρ c (Proc.devRef .tc main_v6) = Cert.ReferenceIdeal.ReadP.val_main_v6 (F := Ideal) (a5 m c) :=
  (keep02_v6 (W2 m ρ c)).trans (W2_v6 m ρ c)
theorem W3_arg0 (c : Dev nD) : W3 m ρ c (Proc.devRef .tc main_arg0) = a0 m c :=
  (keep02_arg0 (W2 m ρ c)).trans (W2_arg0 m ρ c)
theorem W3_arg1 (c : Dev nD) : W3 m ρ c (Proc.devRef .tc main_arg1) = a1 m c :=
  (keep02_arg1 (W2 m ρ c)).trans (W2_arg1 m ρ c)
theorem W3_arg2 (c : Dev nD) : W3 m ρ c (Proc.devRef .tc main_arg2) = a2 m c :=
  (keep02_arg2 (W2 m ρ c)).trans (W2_arg2 m ρ c)
theorem W3_arg3 (c : Dev nD) : W3 m ρ c (Proc.devRef .tc main_arg3) = a3 m c :=
  (keep02_arg3 (W2 m ρ c)).trans (W2_arg3 m ρ c)
theorem W3_arg4 (c : Dev nD) : W3 m ρ c (Proc.devRef .tc main_arg4) = a4 m c :=
  (keep02_arg4 (W2 m ρ c)).trans (W2_arg4 m ρ c)

/-! ## At the exit of region 0: the first product -/

theorem W4_v31 (c : Dev nD) : W4 m ρ c (Proc.devRef .tc main_v31) = Cert.ReferenceIdeal.ReadP.val_main_v7 (F := Ideal) (a0 m c) (a1 m c) := by
  refine (W4_arr m ρ c 2).trans ?_
  rw [region0_value]
  show Cert.ReferenceIdeal.ReadP.val_main_v7 (F := Ideal) (W3 m ρ c (Proc.devRef .tc main_arg0)) (W3 m ρ c (Proc.devRef .tc main_arg1)) = _
  rw [W3_arg0, W3_arg1]
theorem W4_v3 (c : Dev nD) : W4 m ρ c (Proc.devRef .tc main_v3) = Cert.ReferenceIdeal.ReadP.val_main_v3 (F := Ideal) (a5 m c) :=
  (W4_of_ne m ρ c main_v3 (by decide)).trans (W3_v3 m ρ c)
theorem W4_v6 (c : Dev nD) : W4 m ρ c (Proc.devRef .tc main_v6) = Cert.ReferenceIdeal.ReadP.val_main_v6 (F := Ideal) (a5 m c) :=
  (W4_of_ne m ρ c main_v6 (by decide)).trans (W3_v6 m ρ c)
theorem W4_v30 (c : Dev nD) : W4 m ρ c (Proc.devRef .tc main_v30) = Cert.ReferenceIdeal.ReadP.val_main_v38 (F := Ideal) (a5 m c) :=
  (W4_of_ne m ρ c main_v30 (by decide)).trans (W3_v30 m ρ c)
theorem W4_arg2 (c : Dev nD) : W4 m ρ c (Proc.devRef .tc main_arg2) = a2 m c :=
  (W4_of_ne m ρ c main_arg2 (by decide)).trans (W3_arg2 m ρ c)
theorem W4_arg3 (c : Dev nD) : W4 m ρ c (Proc.devRef .tc main_arg3) = a3 m c :=
  (W4_of_ne m ρ c main_arg3 (by decide)).trans (W3_arg3 m ρ c)
theorem W4_arg4 (c : Dev nD) : W4 m ρ c (Proc.devRef .tc main_arg4) = a4 m c :=
  (W4_of_ne m ρ c main_arg4 (by decide)).trans (W3_arg4 m ρ c)

/-! ## At the entry of region 1: the first product's rows gathered by source -/

theorem W5_v38 (c : Dev nD) : W5 m ρ c (Proc.devRef .tc main_v38) = Cert.ReferenceIdeal.ReadP.val_main_v37 (F := Ideal) (a0 m c) (a1 m c) (a5 m c) :=
  ops1_v38 (W4 m ρ c) _ _ _ (W4_v31 m ρ c) (W4_v3 m ρ c)
theorem W5_v3 (c : Dev nD) : W5 m ρ c (Proc.devRef .tc main_v3) = Cert.ReferenceIdeal.ReadP.val_main_v3 (F := Ideal) (a5 m c) :=
  (keep1_v3 (W4 m ρ c)).trans (W4_v3 m ρ c)
theorem W5_v6 (c : Dev nD) : W5 m ρ c (Proc.devRef .tc main_v6) = Cert.ReferenceIdeal.ReadP.val_main_v6 (F := Ideal) (a5 m c) :=
  (keep1_v6 (W4 m ρ c)).trans (W4_v6 m ρ c)
theorem W5_v30 (c : Dev nD) : W5 m ρ c (Proc.devRef .tc main_v30) = Cert.ReferenceIdeal.ReadP.val_main_v38 (F := Ideal) (a5 m c) :=
  (keep1_v30 (W4 m ρ c)).trans (W4_v30 m ρ c)
theorem W5_arg2 (c : Dev nD) : W5 m ρ c (Proc.devRef .tc main_arg2) = a2 m c :=
  (keep1_arg2 (W4 m ρ c)).trans (W4_arg2 m ρ c)
theorem W5_arg3 (c : Dev nD) : W5 m ρ c (Proc.devRef .tc main_arg3) = a3 m c :=
  (keep1_arg3 (W4 m ρ c)).trans (W4_arg3 m ρ c)
theorem W5_arg4 (c : Dev nD) : W5 m ρ c (Proc.devRef .tc main_arg4) = a4 m c :=
  (keep1_arg4 (W4 m ρ c)).trans (W4_arg4 m ρ c)

end Cert.KernelIdeal.Hand

end
-- ==== Proof.Region1.lean ====
/-
  The first edge scaling, block by block. The gathered features [1700000, 64] hold one row of 64 numbers per
  edge; the weight column [1700000, 1] holds one number per edge. At grid point t the kernel takes rows
  2000 t … 2000 t + 1999 of both, repeats each weight along its row and multiplies entrywise. Entry (p, q) of
  what point t writes is features (2000 t + p, q) * weights (2000 t + p, 0): it depends on one entry of each
  input, both in row 2000 t + p, and it is entry (2000 t + p, q) of the whole array of features times the
  column repeated along the rows. The 850 blocks of 2000 rows cover all 1700000 rows, so the array the region
  leaves is that whole product.
-/
import proofs.«103597_j14516989460622_1_alg».proof.Proof.Gen.KernelIdeal.Frame
import proofs.«103597_j14516989460622_1_alg».proof.Proof.RefRead
import proofs.«103597_j14516989460622_1_alg».proof.Proof.LibBlockOps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Pure (hz)

variable (V : (c : Dev nD) → (b : Ref sig .tc) → Buf (Elt Ideal) ((c : Thread nD τ).loc b))

/-- An array of rows scaled row by row by a column: the column is repeated along the rows and multiplied in
    entrywise, as the host operations state it. -/
abbrev hostScale1 (A : FVec Ideal S1700000x64 .f32) (C : FVec Ideal S1700000x1 .f32) : FVec Ideal S1700000x64 .f32 :=
  mulf A (broadcastInDim S1700000x64 ![0, 1] Cert.ReferenceIdeal.Gen.bcast_S1700000x1_S1700000x64_0_1 C)

/-- The same at the arrays region 1 finds: the features scaled by the weight column. -/
abbrev scaled1 (c : Dev nD) : S1700000x64.Idx → Elt Ideal .f32 := hostScale1 (V c main_v38) (V c main_v30)

/-- The printed index maps over the grid: all three windows take row block t and the only column block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- One entry of a point's scaled block is the matching entry of the whole scaled array: entry j of the block
    needs entry j of the feature block and the weight of j's row, and these are entry i of the features and the
    weight of i's row. -/
theorem point1 (x0 : Vec Ideal S2000x64 .f32) (x1 : Vec Ideal S2000x1 .f32)
    (A : FVec Ideal S1700000x64 .f32) (C : FVec Ideal S1700000x1 .f32) (j : S2000x64.Idx) (i : S1700000x64.Idx)
    (hi1 : (i 1).val = (j 1).val)
    (h0 : x0 j = A i) (h1 : x1 (ix2 (j 0) (0 : Fin 1)) = C (ix2 (i 0) (0 : Fin 1))) :
    k1_pay1 x0 x1 j = hostScale1 A C i := by
  obtain ⟨p, q, rfl⟩ : ∃ (p : Fin 2000) (q : Fin 64), j = ix2 p q := ⟨j 0, j 1, eq_ix2 j⟩
  obtain ⟨r, q', rfl⟩ : ∃ (r : Fin 1700000) (q' : Fin 64), i = ix2 r q' := ⟨i 0, i 1, eq_ix2 i⟩
  have hq : q' = q := Fin.ext hi1
  subst hq
  show mulf (F := Ideal) (φ := .f32) (shapeCast S2000x64 x0 shapeCasts_S2000x64_S2000x64)
      (broadcastTo S2000x64 (shapeCast S2000x1 x1 shapeCasts_S2000x1_S2000x1) broadcasts_S2000x1_S2000x64) (ix2 p q') = _
  rw [shapeCast_self, shapeCast_self]
  exact Cert.Proof.Pure.blockScale_apply broadcasts_S2000x1_S2000x64
    Cert.ReferenceIdeal.Gen.bcast_S1700000x1_S1700000x64_0_1 x0 x1 A C p r q' h0 h1

theorem flushed1 (c : Dev nD) (t : Fin cfg1.N) :
    (dat1 V c).flushed 2 t = ((cfg1.win 2).blk t).view.read (Elt Ideal) (scaled1 V c) := by
  show (cfg1.win 2).cut (grid1.coords t) ((dat1 V c).after 2 t) = _
  rw [after1_2]
  unfold out1_2
  rw [View.canon_unit_zero hz]
  simp only [View.ld_unit_zero (S := S2000x64) hz, View.ld_unit_zero (S := S2000x1) hz]
  obtain ⟨e00, e01, e10, e11, e20, e21⟩ := idx1 t
  funext j
  rw [View.read_apply]
  refine point1 _ _ _ _ j _ ?_ ?_ ?_
  · show win1_2.index t (1 : Fin 2) * 64 + 1 * (j 1).val = (j 1).val
    rw [e21]; omega
  · -- the feature block is read at the very entry the output block writes
    unfold iblk1
    rw [View.read_apply]
    refine congrArg (V c main_v38) ?_
    funext a; apply Fin.ext
    match a with
    | ⟨0, _⟩ => show win1_0.index t (0 : Fin 2) * 2000 + 1 * (j 0).val = win1_2.index t (0 : Fin 2) * 2000 + 1 * (j 0).val; rw [e00, e20]
    | ⟨1, _⟩ => show win1_0.index t (1 : Fin 2) * 64 + 1 * (j 1).val = win1_2.index t (1 : Fin 2) * 64 + 1 * (j 1).val; rw [e01, e21]
  · -- the weight block is read in the same row, at its only column
    unfold iblk1
    rw [View.read_apply]
    refine congrArg (V c main_v30) ?_
    funext a; apply Fin.ext
    match a with
    | ⟨0, _⟩ => show win1_1.index t (0 : Fin 2) * 2000 + 1 * (j 0).val = win1_2.index t (0 : Fin 2) * 2000 + 1 * (j 0).val; rw [e10, e20]
    | ⟨1, _⟩ => show win1_1.index t (1 : Fin 2) * 1 + 1 * 0 = 0; rw [e11]

/-- Every row lies in some point's block: row r is in block r / 2000. -/
theorem cover1 (i : S1700000x64.Idx) :
    ∃ t : Fin cfg1.N, (cfg1.win 2).flush t = true ∧ i ∈ ((cfg1.win 2).blk t).view.set := by
  have h0 : (i 0).val < 1700000 := (i 0).isLt
  have h1 : (i 1).val < 64 := (i 1).isLt
  let t : Fin cfg1.N := ⟨(i 0).val / 2000, by rw [show cfg1.N = 850 from N_1]; omega⟩
  obtain ⟨e00, e01, e10, e11, e20, e21⟩ := idx1 t
  refine ⟨t, flush1_2 t, ?_⟩
  show i ∈ ((View.whole main_v39).slice (win1_2.rect t)).set
  rw [View.set_slice_whole, Rect.mem_set_unit]
  intro a
  match a with
  | ⟨0, _⟩ =>
    show win1_2.index t (0 : Fin 2) * 2000 ≤ (i 0).val ∧ (i 0).val < win1_2.index t (0 : Fin 2) * 2000 + 2000
    rw [e20]; show (i 0).val / 2000 * 2000 ≤ (i 0).val ∧ (i 0).val < (i 0).val / 2000 * 2000 + 2000; omega
  | ⟨1, _⟩ =>
    show win1_2.index t (1 : Fin 2) * 64 ≤ (i 1).val ∧ (i 1).val < win1_2.index t (1 : Fin 2) * 64 + 64
    rw [e21]; omega

/-- The array region 1 leaves is the features scaled by the weight column, whole. -/
theorem region1_value (c : Dev nD) : (dat1 V c).arrAt 2 cfg1.N
    = mulf (F := Ideal) (s := S1700000x64) (φ := .f32) (V c main_v38)
        (broadcastInDim S1700000x64 ![0, 1] Cert.ReferenceIdeal.Gen.bcast_S1700000x1_S1700000x64_0_1 (V c main_v30)) :=
  (dat1 V c).arrAt_eq_of_cover 2 (scaled1 V c) (fun t _ => flushed1 V c t) (cover1 )

end Cert.KernelIdeal.Hand

end
-- ==== Proof.Region2.lean ====
/-
  The first layer's bias and rectifier, block by block. At grid point t the kernel takes rows 2000 t … 2000 t + 1999
  of an array a : [100000, 64], adds the one bias row b : [1, 64] to each of them, replaces every negative sum by
  zero, and writes the 2000 rows it gets to the same rows of the output. Entry (p, q) of what point t writes is
  max (a (2000 t + p, q) + b (0, q), 0); it depends on one entry of the block and one entry of the bias row, and it is
  entry (2000 t + p, q) of max (a + b broadcast down the rows, 0) taken over the whole array. The 50 blocks are
  disjoint and cover all 100000 rows, so the array the region leaves is that whole-array expression.
-/
import proofs.«103597_j14516989460622_1_alg».proof.Proof.Gen.KernelIdeal.Frame
import proofs.«103597_j14516989460622_1_alg».proof.Proof.RefRead
import proofs.«103597_j14516989460622_1_alg».proof.Proof.LibBlockOps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Pure (hz)

variable (V : (c : Dev nD) → (b : Ref sig .tc) → Buf (Elt Ideal) ((c : Thread nD τ).loc b))

/-- The rectified biased array, as the reference's host operations: max (a + bias row broadcast down the rows, 0). -/
abbrev hostRelu2 (A : FVec Ideal S100000x64 .f32) (B : FVec Ideal S1x64 .f32) : FVec Ideal S100000x64 .f32 :=
  maximumf (addf A (broadcastInDim S100000x64 ![0, 1] Cert.ReferenceIdeal.Gen.bcast_S1x64_S100000x64_0_1 B))
    (Cert.ReferenceIdeal.ReadP.val_main_call1_v0 (F := Ideal))

/-- The same at the arrays region 2 finds. -/
abbrev relu2 (c : Dev nD) : S100000x64.Idx → Elt Ideal .f32 := hostRelu2 (V c main_v42) (V c main_v43)

/-- The printed index maps over the grid: input and output row blocks move with the point, the bias row stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a point's block, biased and rectified, is the matching entry of the whole array biased and
    rectified: both are max (entry + bias (0, q), 0) once the block's entry is the array's entry in the same column.
    The reference's zero array is the zero constant broadcast to every entry. -/
theorem point2 (x0 : FVec Ideal S2000x64 .f32) (x1 : FVec Ideal S1x64 .f32)
    (A : FVec Ideal S100000x64 .f32) (B : FVec Ideal S1x64 .f32) (j : S2000x64.Idx) (i : S100000x64.Idx)
    (hi1 : (i 1).val = (j 1).val) (h0 : x0 j = A i) (h1 : x1 = B) :
    k2_pay1 x0 x1 j = hostRelu2 A B i := by
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext hi1
  subst hq
  exact Cert.LibBlocks.biasRelu_apply shapeCasts_S2000x64_S2000x64 shapeCasts_S1x64_S1x64 broadcasts_S1x64_S2000x64
    Cert.ReferenceIdeal.Gen.bcast_S1x64_S100000x64_0_1 Cert.ReferenceIdeal.Gen.bcast_S_S100000x64 x0 x1 A B p r q' h0 h1

/-- What point t writes back is block t of the rectified biased array. -/
theorem flushed2 (c : Dev nD) (t : Fin cfg2.N) :
    (dat2 V c).flushed 2 t = ((cfg2.win 2).blk t).view.read (Elt Ideal) (relu2 V c) := by
  show (cfg2.win 2).cut (grid2.coords t) ((dat2 V c).after 2 t) = _
  rw [after2_2]
  unfold out2_2
  rw [View.canon_unit_zero hz]
  simp only [View.ld_unit_zero (S := S2000x64) hz, View.ld_unit_zero (S := S1x64) hz]
  obtain ⟨e00, e01, e10, e11, e20, e21⟩ := idx2 t
  funext j
  rw [View.read_apply]
  refine point2 _ _ _ _ j _ ?_ ?_ ?_
  · -- the output block keeps the column
    show win2_2.index t (1 : Fin 2) * 64 + 1 * (j 1).val = (j 1).val
    rw [e21]; omega
  · -- the input block's entry (p, q) is read where the output block's entry (p, q) is written
    unfold iblk2
    rw [View.read_apply]
    refine congrArg (V c main_v42) ?_
    funext a; apply Fin.ext
    match a with
    | ⟨0, _⟩ => show win2_0.index t (0 : Fin 2) * 2000 + 1 * (j 0).val = win2_2.index t (0 : Fin 2) * 2000 + 1 * (j 0).val; rw [e00, e20]
    | ⟨1, _⟩ => show win2_0.index t (1 : Fin 2) * 64 + 1 * (j 1).val = win2_2.index t (1 : Fin 2) * 64 + 1 * (j 1).val; rw [e01, e21]
  · -- the bias block is the whole bias row at every point
    unfold iblk2
    funext y
    rw [View.read_apply]
    refine congrArg (V c main_v43) ?_
    funext a; apply Fin.ext
    match a with
    | ⟨0, _⟩ => show win2_1.index t (0 : Fin 2) * 1 + 1 * (y 0).val = (y 0).val; rw [e10]; omega
    | ⟨1, _⟩ => show win2_1.index t (1 : Fin 2) * 64 + 1 * (y 1).val = (y 1).val; rw [e11]; omega

/-- Every row lies in some point's block: row r in the block of point r / 2000. -/
theorem cover2 (i : S100000x64.Idx) :
    ∃ t : Fin cfg2.N, (cfg2.win 2).flush t = true ∧ i ∈ ((cfg2.win 2).blk t).view.set := by
  have h0 : (i 0).val < 100000 := (i 0).isLt
  have h1 : (i 1).val < 64 := (i 1).isLt
  let t : Fin cfg2.N := ⟨(i 0).val / 2000, by rw [show cfg2.N = 50 from N_2]; omega⟩
  obtain ⟨e00, e01, e10, e11, e20, e21⟩ := idx2 t
  refine ⟨t, flush2_2 t, ?_⟩
  show i ∈ ((View.whole main_v44).slice (win2_2.rect t)).set
  rw [View.set_slice_whole, Rect.mem_set_unit]
  intro a
  match a with
  | ⟨0, _⟩ =>
    show win2_2.index t (0 : Fin 2) * 2000 ≤ (i 0).val ∧ (i 0).val < win2_2.index t (0 : Fin 2) * 2000 + 2000
    rw [e20]; show (i 0).val / 2000 * 2000 ≤ (i 0).val ∧ (i 0).val < (i 0).val / 2000 * 2000 + 2000; omega
  | ⟨1, _⟩ =>
    show win2_2.index t (1 : Fin 2) * 64 ≤ (i 1).val ∧ (i 1).val < win2_2.index t (1 : Fin 2) * 64 + 64
    rw [e21]; omega

/-- The array region 2 leaves is the array it finds, biased by the row it finds and rectified. -/
theorem region2_value (c : Dev nD) : (dat2 V c).arrAt 2 cfg2.N
    = (maximumf (addf (V c main_v42) (broadcastInDim S100000x64 ![0, 1] Cert.ReferenceIdeal.Gen.bcast_S1x64_S100000x64_0_1 (V c main_v43)))
        (Cert.ReferenceIdeal.ReadP.val_main_call1_v0 (F := Ideal)) : FVec Ideal S100000x64 .f32) :=
  (dat2 V c).arrAt_eq_of_cover 2 (relu2 V c) (fun t _ => flushed2 V c t) (cover2 )

end Cert.KernelIdeal.Hand

end
-- ==== Proof.Region3.lean ====
/-
  The second product, block by block. At grid point t the kernel multiplies rows 2000 t … 2000 t + 1999 of the hidden
  features [100000, 64] by the whole weight column [64, 1] and writes rows 2000 t … of the result column. Entry (p, 0)
  of what point t writes is the sum over k of h (2000 t + p, k) w (k, 0): entry (2000 t + p, 0) of the whole product.
  The 50 blocks cover all 100000 rows, so the array the region leaves is the whole product.
-/
import proofs.«103597_j14516989460622_1_alg».proof.Proof.Gen.KernelIdeal.Frame
import proofs.«103597_j14516989460622_1_alg».proof.Proof.RefRead
import proofs.«103597_j14516989460622_1_alg».proof.Proof.LibBlockOps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Pure (hz)

variable (V : (c : Dev nD) → (b : Ref sig .tc) → Buf (Elt Ideal) ((c : Thread nD τ).loc b))

/-- The whole product of hidden features [100000, 64] with the weight column [64, 1], as the host computes it. -/
abbrev hostProd3 (X : FVec Ideal S100000x64 .f32) (W : FVec Ideal S64x1 .f32) : FVec Ideal S100000x1 .f32 :=
  Host.dotGeneral Cert.ReferenceIdeal.dot_S100000x64_S64x1_S100000x1_1_0_0_1_n_n none X W

/-- The same at the arrays region 3 finds. -/
abbrev prod3 (c : Dev nD) : S100000x1.Idx → Elt Ideal .f32 := hostProd3 (V c main_v44) (V c main_arg3)

/-- The printed index maps over the grid: the row blocks move with the point, the weight block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The block product's dimension numbers are the plain rows-by-columns ones. -/
theorem dk_plain3 : dot_S2000x64_S64x1_S2000x1_1_0_0_1_n_n = DotDims.plain 2000 64 1 := rfl
/-- So are the whole product's. -/
theorem dr_plain3 : Cert.ReferenceIdeal.dot_S100000x64_S64x1_S100000x1_1_0_0_1_n_n = DotDims.plain 100000 64 1 := rfl

/-- One entry of a point's block product is the matching entry of the whole product. -/
theorem point3 (x0 : FVec Ideal S2000x64 .f32) (x1 : FVec Ideal S64x1 .f32)
    (X : FVec Ideal S100000x64 .f32) (W : FVec Ideal S64x1 .f32) (j : S2000x1.Idx) (i : S100000x1.Idx)
    (hi1 : (i 1).val = (j 1).val)
    (h0 : ∀ k : Fin 64, x0 (ix2 (j 0) k) = X (ix2 (i 0) k)) (h1 : x1 = W) :
    k3_pay1 x0 x1 j = hostProd3 X W i := by
  obtain ⟨p, q, rfl⟩ : ∃ (p : Fin 2000) (q : Fin 1), j = ix2 p q := ⟨j 0, j 1, eq_ix2 j⟩
  obtain ⟨r, q', rfl⟩ : ∃ (r : Fin 100000) (q' : Fin 1), i = ix2 r q' := ⟨i 0, i 1, eq_ix2 i⟩
  have hq : q' = q := Fin.ext hi1
  rw [hq]
  show matmul dot_S2000x64_S64x1_S2000x1_1_0_0_1_n_n none
      (truncf .bf16 (shapeCast S2000x64 x0 shapeCasts_S2000x64_S2000x64) bitsLt_bf16_f32) (truncf .bf16 x1 bitsLt_bf16_f32)
      (constant S2000x1 .f32 0x00000000#32) (ix2 p q) = hostProd3 X W (ix2 r q)
  rw [shapeCast_self]
  exact Cert.Proof.Pure.blockMatmul_apply dot_S2000x64_S64x1_S2000x1_1_0_0_1_n_n dk_plain3
    Cert.ReferenceIdeal.dot_S100000x64_S64x1_S100000x1_1_0_0_1_n_n dr_plain3 bitsLt_bf16_f32 x0 x1 X W p r q h0 h1

/-- What point t writes back is block t of the whole product. -/
theorem flushed3 (c : Dev nD) (t : Fin cfg3.N) :
    (dat3 V c).flushed 2 t = ((cfg3.win 2).blk t).view.read (Elt Ideal) (prod3 V c) := by
  show (cfg3.win 2).cut (grid3.coords t) ((dat3 V c).after 2 t) = _
  rw [after3_2]
  unfold out3_2
  rw [View.canon_unit_zero hz]
  simp only [View.ld_unit_zero (S := S2000x64) hz, View.ld_unit_zero (S := S64x1) hz]
  obtain ⟨e00, e01, e10, e11, e20, e21⟩ := idx3 t
  funext j
  rw [View.read_apply]
  refine point3 _ _ _ _ j _ ?_ ?_ ?_
  · show win3_2.index t (1 : Fin 2) * 1 + 1 * (j 1).val = (j 1).val
    rw [e21]; omega
  · intro k
    unfold iblk3
    rw [View.read_apply]
    refine congrArg (V c main_v44) ?_
    funext a; apply Fin.ext
    match a with
    | ⟨0, _⟩ => show win3_0.index t (0 : Fin 2) * 2000 + 1 * (j 0).val = win3_2.index t (0 : Fin 2) * 2000 + 1 * (j 0).val; rw [e00, e20]
    | ⟨1, _⟩ => show win3_0.index t (1 : Fin 2) * 64 + 1 * k.val = k.val; rw [e01]; omega
  · unfold iblk3
    funext y
    rw [View.read_apply]
    refine congrArg (V c main_arg3) ?_
    funext a; apply Fin.ext
    match a with
    | ⟨0, _⟩ => show win3_1.index t (0 : Fin 2) * 64 + 1 * (y 0).val = (y 0).val; rw [e10]; omega
    | ⟨1, _⟩ => show win3_1.index t (1 : Fin 2) * 1 + 1 * (y 1).val = (y 1).val; rw [e11]; omega

/-- Every row lies in some point's block. -/
theorem cover3 (i : S100000x1.Idx) :
    ∃ t : Fin cfg3.N, (cfg3.win 2).flush t = true ∧ i ∈ ((cfg3.win 2).blk t).view.set := by
  have h0 : (i 0).val < 100000 := (i 0).isLt
  have h1 : (i 1).val < 1 := (i 1).isLt
  let t : Fin cfg3.N := ⟨(i 0).val / 2000, by rw [show cfg3.N = 50 from N_3]; omega⟩
  obtain ⟨e00, e01, e10, e11, e20, e21⟩ := idx3 t
  refine ⟨t, flush3_2 t, ?_⟩
  show i ∈ ((View.whole main_v45).slice (win3_2.rect t)).set
  rw [View.set_slice_whole, Rect.mem_set_unit]
  intro a
  match a with
  | ⟨0, _⟩ =>
    show win3_2.index t (0 : Fin 2) * 2000 ≤ (i 0).val ∧ (i 0).val < win3_2.index t (0 : Fin 2) * 2000 + 2000
    rw [e20]; show (i 0).val / 2000 * 2000 ≤ (i 0).val ∧ (i 0).val < (i 0).val / 2000 * 2000 + 2000; omega
  | ⟨1, _⟩ =>
    show win3_2.index t (1 : Fin 2) * 1 ≤ (i 1).val ∧ (i 1).val < win3_2.index t (1 : Fin 2) * 1 + 1
    rw [e21]; omega

/-- The array region 3 leaves is the whole product of the arrays it finds. -/
theorem region3_value (c : Dev nD) : (dat3 V c).arrAt 2 cfg3.N = prod3 V c :=
  (dat3 V c).arrAt_eq_of_cover 2 (prod3 V c) (fun t _ => flushed3 V c t) cover3

end Cert.KernelIdeal.Hand

end
-- ==== Proof.Region4.lean ====
/-
  The second edge scaling, block by block. Both inputs are columns [1700000, 1] with one number per edge: the
  gathered values and the edge weights. At grid point t the kernel takes rows 2000 t … 2000 t + 1999 of both and
  multiplies them entrywise; with a single column nothing has to be repeated. Entry (p, 0) of what point t writes
  is values (2000 t + p, 0) * weights (2000 t + p, 0): entry (2000 t + p, 0) of the entrywise product of the two
  whole columns. The 850 blocks of 2000 rows cover all 1700000 rows, so the array the region leaves is that
  product.
-/
import proofs.«103597_j14516989460622_1_alg».proof.Proof.Gen.KernelIdeal.Frame
import proofs.«103597_j14516989460622_1_alg».proof.Proof.RefRead
import proofs.«103597_j14516989460622_1_alg».proof.Proof.LibBlockOps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Pure (hz)

variable (V : (c : Dev nD) → (b : Ref sig .tc) → Buf (Elt Ideal) ((c : Thread nD τ).loc b))

/-- The entrywise product of two whole columns, as the host operation states it. -/
abbrev hostScale4 (A : FVec Ideal S1700000x1 .f32) (C : FVec Ideal S1700000x1 .f32) : FVec Ideal S1700000x1 .f32 :=
  mulf A C

/-- The same at the arrays region 4 finds: the gathered values times the edge weights. -/
abbrev scaled4 (c : Dev nD) : S1700000x1.Idx → Elt Ideal .f32 := hostScale4 (V c main_v52) (V c main_v30)

/-- The printed index maps over the grid: all three windows take row block t and the only column block. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- One entry of a point's product block is the matching entry of the whole product: entry j of the block needs
    entry j of each input block, and these are entry i of each whole column. -/
theorem point4 (x0 : Vec Ideal S2000x1 .f32) (x1 : Vec Ideal S2000x1 .f32)
    (A : FVec Ideal S1700000x1 .f32) (C : FVec Ideal S1700000x1 .f32) (j : S2000x1.Idx) (i : S1700000x1.Idx)
    (h0 : x0 j = A i) (h1 : x1 j = C i) :
    k4_pay1 x0 x1 j = hostScale4 A C i := by
  show mulf (F := Ideal) (φ := .f32) (shapeCast S2000x1 x0 shapeCasts_S2000x1_S2000x1)
      (shapeCast S2000x1 x1 shapeCasts_S2000x1_S2000x1) j = mulf A C i
  rw [shapeCast_self, shapeCast_self, mulf_apply, mulf_apply, h0, h1]

theorem flushed4 (c : Dev nD) (t : Fin cfg4.N) :
    (dat4 V c).flushed 2 t = ((cfg4.win 2).blk t).view.read (Elt Ideal) (scaled4 V c) := by
  show (cfg4.win 2).cut (grid4.coords t) ((dat4 V c).after 2 t) = _
  rw [after4_2]
  unfold out4_2
  rw [View.canon_unit_zero hz]
  simp only [View.ld_unit_zero (S := S2000x1) hz]
  obtain ⟨e00, e01, e10, e11, e20, e21⟩ := idx4 t
  funext j
  rw [View.read_apply]
  refine point4 _ _ _ _ j _ ?_ ?_
  · -- the value block is read at the very entry the output block writes
    unfold iblk4
    rw [View.read_apply]
    refine congrArg (V c main_v52) ?_
    funext a; apply Fin.ext
    match a with
    | ⟨0, _⟩ => show win4_0.index t (0 : Fin 2) * 2000 + 1 * (j 0).val = win4_2.index t (0 : Fin 2) * 2000 + 1 * (j 0).val; rw [e00, e20]
    | ⟨1, _⟩ => show win4_0.index t (1 : Fin 2) * 1 + 1 * (j 1).val = win4_2.index t (1 : Fin 2) * 1 + 1 * (j 1).val; rw [e01, e21]
  · -- and so is the weight block
    unfold iblk4
    rw [View.read_apply]
    refine congrArg (V c main_v30) ?_
    funext a; apply Fin.ext
    match a with
    | ⟨0, _⟩ => show win4_1.index t (0 : Fin 2) * 2000 + 1 * (j 0).val = win4_2.index t (0 : Fin 2) * 2000 + 1 * (j 0).val; rw [e10, e20]
    | ⟨1, _⟩ => show win4_1.index t (1 : Fin 2) * 1 + 1 * (j 1).val = win4_2.index t (1 : Fin 2) * 1 + 1 * (j 1).val; rw [e11, e21]

/-- Every row lies in some point's block: row r is in block r / 2000. -/
theorem cover4 (i : S1700000x1.Idx) :
    ∃ t : Fin cfg4.N, (cfg4.win 2).flush t = true ∧ i ∈ ((cfg4.win 2).blk t).view.set := by
  have h0 : (i 0).val < 1700000 := (i 0).isLt
  have h1 : (i 1).val < 1 := (i 1).isLt
  let t : Fin cfg4.N := ⟨(i 0).val / 2000, by rw [show cfg4.N = 850 from N_4]; omega⟩
  obtain ⟨e00, e01, e10, e11, e20, e21⟩ := idx4 t
  refine ⟨t, flush4_2 t, ?_⟩
  show i ∈ ((View.whole main_v53).slice (win4_2.rect t)).set
  rw [View.set_slice_whole, Rect.mem_set_unit]
  intro a
  match a with
  | ⟨0, _⟩ =>
    show win4_2.index t (0 : Fin 2) * 2000 ≤ (i 0).val ∧ (i 0).val < win4_2.index t (0 : Fin 2) * 2000 + 2000
    rw [e20]; show (i 0).val / 2000 * 2000 ≤ (i 0).val ∧ (i 0).val < (i 0).val / 2000 * 2000 + 2000; omega
  | ⟨1, _⟩ =>
    show win4_2.index t (1 : Fin 2) * 1 ≤ (i 1).val ∧ (i 1).val < win4_2.index t (1 : Fin 2) * 1 + 1
    rw [e21]; omega

/-- The array region 4 leaves is the entrywise product of the two columns, whole. -/
theorem region4_value (c : Dev nD) : (dat4 V c).arrAt 2 cfg4.N
    = mulf (F := Ideal) (s := S1700000x1) (φ := .f32) (V c main_v52) (V c main_v30) :=
  (dat4 V c).arrAt_eq_of_cover 2 (scaled4 V c) (fun t _ => flushed4 V c t) (cover4 )

end Cert.KernelIdeal.Hand

end
-- ==== Proof.Region5.lean ====
/-
  The second layer's bias, block by block. The layer has one output column. At grid point t the kernel takes rows
  2000 t … 2000 t + 1999 of a column a : [100000, 1], adds the single bias number b : [1, 1] to each entry and writes
  the 2000 sums to the same rows of the output. Entry (p, 0) of what point t writes is a (2000 t + p, 0) + b (0, 0):
  entry (2000 t + p, 0) of a + b broadcast down the rows, taken over the whole column. The 50 blocks are disjoint
  and cover all 100000 rows, so the array the region leaves is that whole-array sum.
-/
import proofs.«103597_j14516989460622_1_alg».proof.Proof.Gen.KernelIdeal.Frame
import proofs.«103597_j14516989460622_1_alg».proof.Proof.RefRead
import proofs.«103597_j14516989460622_1_alg».proof.Proof.LibBlockOps
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof.Pure (hz)

variable (V : (c : Dev nD) → (b : Ref sig .tc) → Buf (Elt Ideal) ((c : Thread nD τ).loc b))

/-- The biased column, as the reference's host operations: a + bias broadcast down the rows. -/
abbrev hostBias5 (A : FVec Ideal S100000x1 .f32) (B : FVec Ideal S1x1 .f32) : FVec Ideal S100000x1 .f32 :=
  addf A (broadcastInDim S100000x1 ![0, 1] Cert.ReferenceIdeal.Gen.bcast_S1x1_S100000x1_0_1 B)

/-- The same at the arrays region 5 finds. -/
abbrev bias5 (c : Dev nD) : S100000x1.Idx → Elt Ideal .f32 := hostBias5 (V c main_v56) (V c main_v57)

/-- The printed index maps over the grid: input and output row blocks move with the point, the bias stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- One entry of a point's biased block is the matching entry of the whole biased column: both are
    entry + bias (0, q) once the block's entry is the array's entry in the same column. The two casts in the body
    keep the shape, so they change nothing. -/
theorem point5 (x0 : FVec Ideal S2000x1 .f32) (x1 : FVec Ideal S1x1 .f32)
    (A : FVec Ideal S100000x1 .f32) (B : FVec Ideal S1x1 .f32) (j : S2000x1.Idx) (i : S100000x1.Idx)
    (hi1 : (i 1).val = (j 1).val) (h0 : x0 j = A i) (h1 : x1 = B) :
    k5_pay1 x0 x1 j = hostBias5 A B i := by
  obtain ⟨p, q, rfl⟩ : ∃ (p : Fin 2000) (q : Fin 1), j = ix2 p q := ⟨j 0, j 1, eq_ix2 j⟩
  obtain ⟨r, q', rfl⟩ : ∃ (r : Fin 100000) (q' : Fin 1), i = ix2 r q' := ⟨i 0, i 1, eq_ix2 i⟩
  have hq : q' = q := Fin.ext hi1
  subst hq
  show addf (shapeCast S2000x1 x0 shapeCasts_S2000x1_S2000x1)
      (broadcastTo S2000x1 (shapeCast S1x1 x1 shapeCasts_S1x1_S1x1) broadcasts_S1x1_S2000x1) (ix2 p q')
    = hostBias5 A B (ix2 r q')
  rw [shapeCast_self, shapeCast_self]
  exact Cert.Proof.Pure.blockBias_apply broadcasts_S1x1_S2000x1 Cert.ReferenceIdeal.Gen.bcast_S1x1_S100000x1_0_1
    x0 x1 A B p r q' h0 h1

/-- What point t writes back is block t of the biased column. -/
theorem flushed5 (c : Dev nD) (t : Fin cfg5.N) :
    (dat5 V c).flushed 2 t = ((cfg5.win 2).blk t).view.read (Elt Ideal) (bias5 V c) := by
  show (cfg5.win 2).cut (grid5.coords t) ((dat5 V c).after 2 t) = _
  rw [after5_2]
  unfold out5_2
  rw [View.canon_unit_zero hz]
  simp only [View.ld_unit_zero (S := S2000x1) hz, View.ld_unit_zero (S := S1x1) hz]
  obtain ⟨e00, e01, e10, e11, e20, e21⟩ := idx5 t
  funext j
  rw [View.read_apply]
  refine point5 _ _ _ _ j _ ?_ ?_ ?_
  · -- the output block keeps the column
    show win5_2.index t (1 : Fin 2) * 1 + 1 * (j 1).val = (j 1).val
    rw [e21]; omega
  · -- the input block's entry (p, 0) is read where the output block's entry (p, 0) is written
    unfold iblk5
    rw [View.read_apply]
    refine congrArg (V c main_v56) ?_
    funext a; apply Fin.ext
    match a with
    | ⟨0, _⟩ => show win5_0.index t (0 : Fin 2) * 2000 + 1 * (j 0).val = win5_2.index t (0 : Fin 2) * 2000 + 1 * (j 0).val; rw [e00, e20]
    | ⟨1, _⟩ => show win5_0.index t (1 : Fin 2) * 1 + 1 * (j 1).val = win5_2.index t (1 : Fin 2) * 1 + 1 * (j 1).val; rw [e01, e21]
  · -- the bias block is the whole bias at every point
    unfold iblk5
    funext y
    rw [View.read_apply]
    refine congrArg (V c main_v57) ?_
    funext a; apply Fin.ext
    match a with
    | ⟨0, _⟩ => show win5_1.index t (0 : Fin 2) * 1 + 1 * (y 0).val = (y 0).val; rw [e10]; omega
    | ⟨1, _⟩ => show win5_1.index t (1 : Fin 2) * 1 + 1 * (y 1).val = (y 1).val; rw [e11]; omega

/-- Every row lies in some point's block: row r in the block of point r / 2000. -/
theorem cover5 (i : S100000x1.Idx) :
    ∃ t : Fin cfg5.N, (cfg5.win 2).flush t = true ∧ i ∈ ((cfg5.win 2).blk t).view.set := by
  have h0 : (i 0).val < 100000 := (i 0).isLt
  have h1 : (i 1).val < 1 := (i 1).isLt
  let t : Fin cfg5.N := ⟨(i 0).val / 2000, by rw [show cfg5.N = 50 from N_5]; omega⟩
  obtain ⟨e00, e01, e10, e11, e20, e21⟩ := idx5 t
  refine ⟨t, flush5_2 t, ?_⟩
  show i ∈ ((View.whole main_v58).slice (win5_2.rect t)).set
  rw [View.set_slice_whole, Rect.mem_set_unit]
  intro a
  match a with
  | ⟨0, _⟩ =>
    show win5_2.index t (0 : Fin 2) * 2000 ≤ (i 0).val ∧ (i 0).val < win5_2.index t (0 : Fin 2) * 2000 + 2000
    rw [e20]; show (i 0).val / 2000 * 2000 ≤ (i 0).val ∧ (i 0).val < (i 0).val / 2000 * 2000 + 2000; omega
  | ⟨1, _⟩ =>
    show win5_2.index t (1 : Fin 2) * 1 ≤ (i 1).val ∧ (i 1).val < win5_2.index t (1 : Fin 2) * 1 + 1
    rw [e21]; omega

/-- The array region 5 leaves is the column it finds plus the bias it finds. -/
theorem region5_value (c : Dev nD) : (dat5 V c).arrAt 2 cfg5.N
    = (addf (V c main_v56) (broadcastInDim S100000x1 ![0, 1] Cert.ReferenceIdeal.Gen.bcast_S1x1_S100000x1_0_1 (V c main_v57))
        : FVec Ideal S100000x1 .f32) :=
  (dat5 V c).arrAt_eq_of_cover 2 (bias5 V c) (fun t _ => flushed5 V c t) (cover5 )

end Cert.KernelIdeal.Hand

end
-- ==== Proof.RefFacts.lean ====
/-
  The reference computes the per-edge normalisation twice, once in each layer, from the same edge lists with the same
  operations: the in-degrees by scatter-addition of ones, their inverse square roots where positive, the product of
  the two endpoints' factors, broadcast to a column. The two columns are the same array.
-/
import proofs.«103597_j14516989460622_1_alg».proof.Proof.RefRead

set_option maxRecDepth 16384

noncomputable section

namespace Cert.ReferenceIdeal.Hand

open Cert.ReferenceIdeal Cert.ReferenceIdeal.ReadP Idealize.ShloMosaic

variable {F : FTy → Type} [FloatOps F]

/-- The second layer's normalisation column is the first layer's. -/
theorem norm_again (x5 : (⟨S2x1600000, .i32⟩ : BufTy).Contents (Elt F)) :
    val_main_v79 (F := F) x5 = val_main_v38 (F := F) x5 := rfl

end Cert.ReferenceIdeal.Hand

end
-- ==== Proof.Boundaries2.lean ====
/-
  The contents of the kernel program's buffers at the boundaries between its segments, from the exit of the second
  kernel region to the return, each read as a stage of the reference: the scaled messages, their sums by destination,
  the hidden features after bias and rectifier, the second product, its gathered and scaled rows, their sums, the
  result with its bias, and the result as a vector.
-/
import proofs.«103597_j14516989460622_1_alg».proof.Proof.Boundaries1
import proofs.«103597_j14516989460622_1_alg».proof.Proof.Region1
import proofs.«103597_j14516989460622_1_alg».proof.Proof.Region2
import proofs.«103597_j14516989460622_1_alg».proof.Proof.Region3
import proofs.«103597_j14516989460622_1_alg».proof.Proof.Region4
import proofs.«103597_j14516989460622_1_alg».proof.Proof.Region5
import proofs.«103597_j14516989460622_1_alg».proof.Proof.RefFacts

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the exit of region 1: the first layer's messages -/

theorem W6_v39 (c : Dev nD) : W6 m ρ c (Proc.devRef .tc main_v39) = Cert.ReferenceIdeal.ReadP.val_main_v40 (F := Ideal) (a0 m c) (a1 m c) (a5 m c) := by
  refine (W6_arr m ρ c 2).trans ?_
  rw [region1_value]
  show hostScale1 (W5 m ρ c (Proc.devRef .tc main_v38)) (W5 m ρ c (Proc.devRef .tc main_v30)) = _
  rw [W5_v38, W5_v30]
  rfl
theorem W6_v3 (c : Dev nD) : W6 m ρ c (Proc.devRef .tc main_v3) = Cert.ReferenceIdeal.ReadP.val_main_v3 (F := Ideal) (a5 m c) :=
  (W6_of_ne m ρ c main_v3 (by decide)).trans (W5_v3 m ρ c)
theorem W6_v6 (c : Dev nD) : W6 m ρ c (Proc.devRef .tc main_v6) = Cert.ReferenceIdeal.ReadP.val_main_v6 (F := Ideal) (a5 m c) :=
  (W6_of_ne m ρ c main_v6 (by decide)).trans (W5_v6 m ρ c)
/-- The normalisation column is an input of region 1: an input window's array is left as it was found. -/
theorem W6_v30 (c : Dev nD) : W6 m ρ c (Proc.devRef .tc main_v30) = Cert.ReferenceIdeal.ReadP.val_main_v38 (F := Ideal) (a5 m c) :=
  ((W6_arr m ρ c 1).trans (((dat1 (V5 m ρ) c).arrAt_in 1 rfl _).trans (A_eq1 (V5 m ρ) c 1))).trans (W5_v30 m ρ c)
theorem W6_arg2 (c : Dev nD) : W6 m ρ c (Proc.devRef .tc main_arg2) = a2 m c :=
  (W6_of_ne m ρ c main_arg2 (by decide)).trans (W5_arg2 m ρ c)
theorem W6_arg3 (c : Dev nD) : W6 m ρ c (Proc.devRef .tc main_arg3) = a3 m c :=
  (W6_of_ne m ρ c main_arg3 (by decide)).trans (W5_arg3 m ρ c)
theorem W6_arg4 (c : Dev nD) : W6 m ρ c (Proc.devRef .tc main_arg4) = a4 m c :=
  (W6_of_ne m ρ c main_arg4 (by decide)).trans (W5_arg4 m ρ c)

/-! ## At the entry of region 2: the messages added up by destination, and the bias row -/

theorem W7_v42 (c : Dev nD) : W7 m ρ c (Proc.devRef .tc main_v42) = Cert.ReferenceIdeal.ReadP.val_main_v43 (F := Ideal) (a0 m c) (a1 m c) (a5 m c) :=
  ops2_v42 (W6 m ρ c) _ _ _ (W6_v39 m ρ c) (W6_v6 m ρ c)
theorem W7_v43 (c : Dev nD) : W7 m ρ c (Proc.devRef .tc main_v43) = Cert.ReferenceIdeal.ReadP.val_main_v44 (F := Ideal) (a2 m c) :=
  ops2_v43 (W6 m ρ c) _ (W6_arg2 m ρ c)
theorem W7_v3 (c : Dev nD) : W7 m ρ c (Proc.devRef .tc main_v3) = Cert.ReferenceIdeal.ReadP.val_main_v3 (F := Ideal) (a5 m c) :=
  (keep2_v3 (W6 m ρ c)).trans (W6_v3 m ρ c)
theorem W7_v6 (c : Dev nD) : W7 m ρ c (Proc.devRef .tc main_v6) = Cert.ReferenceIdeal.ReadP.val_main_v6 (F := Ideal) (a5 m c) :=
  (keep2_v6 (W6 m ρ c)).trans (W6_v6 m ρ c)
theorem W7_v30 (c : Dev nD) : W7 m ρ c (Proc.devRef .tc main_v30) = Cert.ReferenceIdeal.ReadP.val_main_v38 (F := Ideal) (a5 m c) :=
  (keep2_v30 (W6 m ρ c)).trans (W6_v30 m ρ c)
theorem W7_arg3 (c : Dev nD) : W7 m ρ c (Proc.devRef .tc main_arg3) = a3 m c :=
  (keep2_arg3 (W6 m ρ c)).trans (W6_arg3 m ρ c)
theorem W7_arg4 (c : Dev nD) : W7 m ρ c (Proc.devRef .tc main_arg4) = a4 m c :=
  (keep2_arg4 (W6 m ρ c)).trans (W6_arg4 m ρ c)

/-! ## At the exit of region 2: the hidden features -/

theorem W8_v44 (c : Dev nD) : W8 m ρ c (Proc.devRef .tc main_v44) = Cert.ReferenceIdeal.ReadP.val_main_v47 (F := Ideal) (a0 m c) (a1 m c) (a2 m c) (a5 m c) := by
  refine (W8_arr m ρ c 2).trans ?_
  rw [region2_value]
  show hostRelu2 (W7 m ρ c (Proc.devRef .tc main_v42)) (W7 m ρ c (Proc.devRef .tc main_v43)) = _
  rw [W7_v42, W7_v43]
  rfl
theorem W8_v3 (c : Dev nD) : W8 m ρ c (Proc.devRef .tc main_v3) = Cert.ReferenceIdeal.ReadP.val_main_v3 (F := Ideal) (a5 m c) :=
  (W8_of_ne m ρ c main_v3 (by decide)).trans (W7_v3 m ρ c)
theorem W8_v6 (c : Dev nD) : W8 m ρ c (Proc.devRef .tc main_v6) = Cert.ReferenceIdeal.ReadP.val_main_v6 (F := Ideal) (a5 m c) :=
  (W8_of_ne m ρ c main_v6 (by decide)).trans (W7_v6 m ρ c)
theorem W8_v30 (c : Dev nD) : W8 m ρ c (Proc.devRef .tc main_v30) = Cert.ReferenceIdeal.ReadP.val_main_v38 (F := Ideal) (a5 m c) :=
  (W8_of_ne m ρ c main_v30 (by decide)).trans (W7_v30 m ρ c)
theorem W8_arg3 (c : Dev nD) : W8 m ρ c (Proc.devRef .tc main_arg3) = a3 m c :=
  (W8_of_ne m ρ c main_arg3 (by decide)).trans (W7_arg3 m ρ c)
theorem W8_arg4 (c : Dev nD) : W8 m ρ c (Proc.devRef .tc main_arg4) = a4 m c :=
  (W8_of_ne m ρ c main_arg4 (by decide)).trans (W7_arg4 m ρ c)

/-! ## At the exit of region 3: the second product -/

theorem W9_v45 (c : Dev nD) : W9 m ρ c (Proc.devRef .tc main_v45) = Cert.ReferenceIdeal.ReadP.val_main_v48 (F := Ideal) (a0 m c) (a1 m c) (a2 m c) (a3 m c) (a5 m c) := by
  refine (W9_arr m ρ c 2).trans ?_
  rw [region3_value]
  show hostProd3 (W8 m ρ c (Proc.devRef .tc main_v44)) (W8 m ρ c (Proc.devRef .tc main_arg3)) = _
  rw [W8_v44, W8_arg3]
  rfl
theorem W9_v3 (c : Dev nD) : W9 m ρ c (Proc.devRef .tc main_v3) = Cert.ReferenceIdeal.ReadP.val_main_v3 (F := Ideal) (a5 m c) :=
  (W9_of_ne m ρ c main_v3 (by decide)).trans (W8_v3 m ρ c)
theorem W9_v6 (c : Dev nD) : W9 m ρ c (Proc.devRef .tc main_v6) = Cert.ReferenceIdeal.ReadP.val_main_v6 (F := Ideal) (a5 m c) :=
  (W9_of_ne m ρ c main_v6 (by decide)).trans (W8_v6 m ρ c)
theorem W9_v30 (c : Dev nD) : W9 m ρ c (Proc.devRef .tc main_v30) = Cert.ReferenceIdeal.ReadP.val_main_v38 (F := Ideal) (a5 m c) :=
  (W9_of_ne m ρ c main_v30 (by decide)).trans (W8_v30 m ρ c)
theorem W9_arg4 (c : Dev nD) : W9 m ρ c (Proc.devRef .tc main_arg4) = a4 m c :=
  (W9_of_ne m ρ c main_arg4 (by decide)).trans (W8_arg4 m ρ c)

/-! ## At the entry of region 4: the second product's rows gathered by source -/

theorem W10_v52 (c : Dev nD) : W10 m ρ c (Proc.devRef .tc main_v52) = Cert.ReferenceIdeal.ReadP.val_main_v78 (F := Ideal) (a0 m c) (a1 m c) (a2 m c) (a3 m c) (a5 m c) :=
  ops4_v52 (W9 m ρ c) _ _ _ _ _ (W9_v45 m ρ c) (W9_v3 m ρ c)
theorem W10_v6 (c : Dev nD) : W10 m ρ c (Proc.devRef .tc main_v6) = Cert.ReferenceIdeal.ReadP.val_main_v6 (F := Ideal) (a5 m c) :=
  (keep4_v6 (W9 m ρ c)).trans (W9_v6 m ρ c)
theorem W10_v30 (c : Dev nD) : W10 m ρ c (Proc.devRef .tc main_v30) = Cert.ReferenceIdeal.ReadP.val_main_v38 (F := Ideal) (a5 m c) :=
  (keep4_v30 (W9 m ρ c)).trans (W9_v30 m ρ c)
theorem W10_arg4 (c : Dev nD) : W10 m ρ c (Proc.devRef .tc main_arg4) = a4 m c :=
  (keep4_arg4 (W9 m ρ c)).trans (W9_arg4 m ρ c)

/-! ## At the exit of region 4: the second layer's messages -/

theorem W11_v53 (c : Dev nD) : W11 m ρ c (Proc.devRef .tc main_v53) = Cert.ReferenceIdeal.ReadP.val_main_v80 (F := Ideal) (a0 m c) (a1 m c) (a2 m c) (a3 m c) (a5 m c) := by
  refine (W11_arr m ρ c 2).trans ?_
  rw [region4_value]
  show hostScale4 (W10 m ρ c (Proc.devRef .tc main_v52)) (W10 m ρ c (Proc.devRef .tc main_v30)) = _
  rw [W10_v52, W10_v30, ← Cert.ReferenceIdeal.Hand.norm_again]
  rfl
theorem W11_v6 (c : Dev nD) : W11 m ρ c (Proc.devRef .tc main_v6) = Cert.ReferenceIdeal.ReadP.val_main_v6 (F := Ideal) (a5 m c) :=
  (W11_of_ne m ρ c main_v6 (by decide)).trans (W10_v6 m ρ c)
theorem W11_arg4 (c : Dev nD) : W11 m ρ c (Proc.devRef .tc main_arg4) = a4 m c :=
  (W11_of_ne m ρ c main_arg4 (by decide)).trans (W10_arg4 m ρ c)

/-! ## At the entry of region 5: the messages added up by destination, and the bias -/

theorem W12_v56 (c : Dev nD) : W12 m ρ c (Proc.devRef .tc main_v56) = Cert.ReferenceIdeal.ReadP.val_main_v83 (F := Ideal) (a0 m c) (a1 m c) (a2 m c) (a3 m c) (a5 m c) :=
  ops5_v56 (W11 m ρ c) _ _ _ _ _ (W11_v53 m ρ c) (W11_v6 m ρ c)
theorem W12_v57 (c : Dev nD) : W12 m ρ c (Proc.devRef .tc main_v57) = Cert.ReferenceIdeal.ReadP.val_main_v84 (F := Ideal) (a4 m c) :=
  ops5_v57 (W11 m ρ c) _ (W11_arg4 m ρ c)

/-! ## At the exit of region 5, and at the return -/

theorem W13_v58 (c : Dev nD) : W13 m ρ c (Proc.devRef .tc main_v58) = Cert.ReferenceIdeal.ReadP.val_main_v86 (F := Ideal) (a0 m c) (a1 m c) (a2 m c) (a3 m c) (a4 m c) (a5 m c) := by
  refine (W13_arr m ρ c 2).trans ?_
  rw [region5_value]
  show hostBias5 (W12 m ρ c (Proc.devRef .tc main_v56)) (W12 m ρ c (Proc.devRef .tc main_v57)) = _
  rw [W12_v56, W12_v57]
  rfl

/-- The kernel program's result is the reference's last stage of the launch arguments. -/
theorem W14_v59 (c : Dev nD) : W14 m ρ c (Proc.devRef .tc main_v59) = Cert.ReferenceIdeal.ReadP.val_main_v87 (F := Ideal) (a0 m c) (a1 m c) (a2 m c) (a3 m c) (a4 m c) (a5 m c) :=
  ops6_v59 (W13 m ρ c) _ _ _ _ _ _ (W13_v58 m ρ c)

end Cert.KernelIdeal.Hand

end
-- ==== Proof.lean ====
/-
  The certificate of a two-layer graph convolution with self-loops and symmetric degree normalisation,
  out = Â relu(Â x W1 + b1) W2 + b2 with Â = D^(-1/2) (A + I) D^(-1/2), computed by a kernel program against a host
  reference, equal on the extended reals.

  Both programs build the same edge lists (sources and destinations, a self-loop appended per node), the same
  in-degrees, inverse square roots and per-edge normalisation, gather rows by source and add messages up by
  destination with the same host operations. They differ in where the dense, regular work is done: the kernel
  program does the two products, the two scalings of the gathered rows by the normalisation column and the two bias
  additions (the first with the rectifier) in six kernel regions, each over blocks of 2000 rows, where the reference
  uses one host operation on the whole array. Block by block each region leaves exactly the whole-array operation's
  result (a product's entry is the same sum over the contracted axis; scaling, bias and rectifier are entry by
  entry; narrowing the operands of a product on the way in is the identity on the extended reals), so by carrying
  the contents of the buffers from one segment boundary to the next the kernel program's result is the reference's
  last stage of the same arguments. No law that needs finiteness is used: the precondition is not opened.

  The frames of the two kernel programs are the generated ones; the reference's frame is its run with the result
  dropped; the idealization rewrote nothing.
-/
import proofs.«103597_j14516989460622_1_alg».proof.Defs
import proofs.«103597_j14516989460622_1_alg».proof.Proof.Gen.Kernel
import proofs.«103597_j14516989460622_1_alg».proof.Proof.Gen.Kernel.Skeleton
import proofs.«103597_j14516989460622_1_alg».proof.Proof.Gen.Kernel.Launch
import proofs.«103597_j14516989460622_1_alg».proof.Proof.Gen.Kernel.Points
import proofs.«103597_j14516989460622_1_alg».proof.Proof.Gen.Kernel.Frame
import proofs.«103597_j14516989460622_1_alg».proof.Proof.Gen.KernelIdeal
import proofs.«103597_j14516989460622_1_alg».proof.Proof.Gen.KernelIdeal.Skeleton
import proofs.«103597_j14516989460622_1_alg».proof.Proof.Gen.KernelIdeal.Launch
import proofs.«103597_j14516989460622_1_alg».proof.Proof.Gen.KernelIdeal.Points
import proofs.«103597_j14516989460622_1_alg».proof.Proof.Gen.KernelIdeal.Frame
import proofs.«103597_j14516989460622_1_alg».proof.Proof.Gen.ReferenceIdeal
import proofs.«103597_j14516989460622_1_alg».proof.Proof.Gen.Pre_finite_inputs
import proofs.«103597_j14516989460622_1_alg».proof.Proof.KernelRun
import proofs.«103597_j14516989460622_1_alg».proof.Proof.RefRead
import proofs.«103597_j14516989460622_1_alg».proof.Proof.Boundaries2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.W14_v59 m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v87_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
